-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x224x224 : Shape := ⟨4, ![32, 128, 224, 224]⟩
abbrev S32x1x224x224 : Shape := ⟨4, ![32, 1, 224, 224]⟩
abbrev S_ : Shape := ⟨0, ![]⟩

class Facts : Prop where
  bcast_S_S32x128x224x224 : S_.BroadcastsInDim S32x128x224x224 (![] : Fin 0 → Fin S32x128x224x224.rank)
  reducesTo_S32x128x224x224_S_d0_1_2_3 : S32x128x224x224.ReducesTo [0, 1, 2, 3] S_
  h_S_ : 0 < S_.numel
  bcast_S_S32x1x224x224 : S_.BroadcastsInDim S32x1x224x224 (![] : Fin 0 → Fin S32x1x224x224.rank)
  reducesTo_S32x1x224x224_S_d0_1_2_3 : S32x1x224x224.ReducesTo [0, 1, 2, 3] S_

variable [Facts]

def fn {F : FTy → Type} [FloatOps F] (main_arg0 : FVec F S32x128x224x224 .f32) (main_arg1 : FVec F S32x1x224x224 .f32) : IVec S_ 1 :=
  let main_v0 : FVec F S32x128x224x224 .f32 := Host.absf main_arg0
  let main_cst : FVec F S_ .f32 := constant S_ .f32 0x7F800000#32
  let main_v1 : FVec F S32x128x224x224 .f32 := broadcastInDim S32x128x224x224 ![] bcast_S_S32x128x224x224 main_cst
  let main_v2 : IVec S32x128x224x224 1 := cmpf .olt main_v0 main_v1
  let main_c : IVec S_ 1 := constantI S_ 1 1#1
  let main_v3 : IVec S_ 1 := (fun x v => Host.reduce IntOp.andi x v reducesTo_S32x128x224x224_S_d0_1_2_3 h_S_) main_v2 main_c
  let main_v4 : FVec F S32x1x224x224 .f32 := Host.absf main_arg1
  let main_cst_0 : FVec F S_ .f32 := constant S_ .f32 0x7F800000#32
  let main_v5 : FVec F S32x1x224x224 .f32 := broadcastInDim S32x1x224x224 ![] bcast_S_S32x1x224x224 main_cst_0
  let main_v6 : IVec S32x1x224x224 1 := cmpf .olt main_v4 main_v5
  let main_c_1 : IVec S_ 1 := constantI S_ 1 1#1
  let main_v7 : IVec S_ 1 := (fun x v => Host.reduce IntOp.andi x v reducesTo_S32x1x224x224_S_d0_1_2_3 h_S_) main_v6 main_c_1
  let main_v8 : IVec S_ 1 := andi main_v3 main_v7
  main_v8
-- ==== Kernel.lean ====
abbrev S32x128x224x224 : Shape := ⟨4, ![32, 128, 224, 224]⟩
abbrev S32x1x224x224 : Shape := ⟨4, ![32, 1, 224, 224]⟩
abbrev S1x32x224x224 : Shape := ⟨4, ![1, 32, 224, 224]⟩
abbrev S1x1x224x224 : Shape := ⟨4, ![1, 1, 224, 224]⟩

abbrev nBuf : Space → Nat
  | .hbm => 3
  | .vmem => 6
  | .smem => 0
  | _ => 0

abbrev bufTy : (tb : Table) → Fin (tcTables nBuf tb) → BufTy
  | .hbm, ⟨0, _⟩ => ⟨S32x128x224x224, .f32⟩
  | .hbm, ⟨1, _⟩ => ⟨S32x1x224x224, .f32⟩
  | .hbm, ⟨2, _⟩ => ⟨S32x128x224x224, .f32⟩
  | .local _ .vmem, ⟨0, _⟩ => ⟨S1x32x224x224, .f32⟩
  | .local _ .vmem, ⟨1, _⟩ => ⟨S1x32x224x224, .f32⟩
  | .local _ .vmem, ⟨2, _⟩ => ⟨S1x1x224x224, .f32⟩
  | .local _ .vmem, ⟨3, _⟩ => ⟨S1x1x224x224, .f32⟩
  | .local _ .vmem, ⟨4, _⟩ => ⟨S1x32x224x224, .f32⟩
  | .local _ .vmem, ⟨5, _⟩ => ⟨S1x32x224x224, .f32⟩
  | _, _ => ⟨S32x128x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x224x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x32x224x224_S1x32x224x224_0_0_0_0 : ∀ a, (![0, 0, 0, 0] : Fin 4 → Nat) a + S1x32x224x224.size a ≤ S1x32x224x224.size a
  h_S1x32x224x224 : 0 < S1x32x224x224.numel
  inb_S1x1x224x224_S1x1x224x224_0_0_0_0 : ∀ a, (![0, 0, 0, 0] : Fin 4 → Nat) a + S1x1x224x224.size a ≤ S1x1x224x224.size a
  h_S1x1x224x224 : 0 < S1x1x224x224.numel
  broadcasts_S1x1x224x224_S1x32x224x224 : S1x1x224x224.Broadcasts S1x32x224x224
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x224x224.size a ≤ S32x128x224x224.size a
  hwx0_0 : ∀ i : grid0.Coords, EltTy.bits .f32 = 32 ∨ (Rect.block (s := S32x128x224x224) S1x32x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x224x224.size a ≤ S32x1x224x224.size a
  hwx0_1 : ∀ i : grid0.Coords, EltTy.bits .f32 = 32 ∨ (Rect.block (s := S32x1x224x224) S1x1x224x224.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x224x224.size a ≤ S32x128x224x224.size a
  hwx0_2 : ∀ i : grid0.Coords, EltTy.bits .f32 = 32 ∨ (Rect.block (s := S32x128x224x224) S1x32x224x224.size (cc0_transform_2 i) (hinb0_2 i)).WholeWords (EltTy.packing .f32)

variable [Facts₀]

abbrev win0_0 : Pipeline.Window sig grid0 :=
  Pipeline.Window.ofSpec (Memref.whole main_arg0) S1x32x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x224x224.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32x224x224.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x128x224x224 : Shape := ⟨4, ![32, 128, 224, 224]⟩
abbrev S32x1x224x224 : Shape := ⟨4, ![32, 1, 224, 224]⟩

abbrev nBuf : Space → Nat
  | .hbm => 4
  | .vmem => 0
  | .smem => 0
  | _ => 0

abbrev bufTy : (tb : Table) → Fin (tcTables nBuf tb) → BufTy
  | .hbm, ⟨0, _⟩ => ⟨S32x128x224x224, .f32⟩
  | .hbm, ⟨1, _⟩ => ⟨S32x1x224x224, .f32⟩
  | .hbm, ⟨2, _⟩ => ⟨S32x128x224x224, .f32⟩
  | .hbm, ⟨3, _⟩ => ⟨S32x128x224x224, .f32⟩
  | _, _ => ⟨S32x128x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  bcast_S32x1x224x224_S32x128x224x224_0_1_2_3 : S32x1x224x224.BroadcastsInDim S32x128x224x224 (![0, 1, 2, 3] : Fin 4 → Fin S32x128x224x224.rank)

variable [Facts₀]

class Facts : Prop extends Facts₀ where

variable [Facts]
-- ==== Proof.MaskedFeature.lean ====
/-
  What both programs compute, as one function of the two argument arrays.

  A feature map `feat` of shape [32, 128, 224, 224] (sample, channel, row, column) is multiplied by a keep mask
  `mask` of shape [32, 1, 224, 224] that has a single channel: entry (b, ch, h, w) of the result is
  `feat (b, ch, h, w) · mask (b, 0, h, w)`, every channel of a sample meeting the same mask pixel. Nothing else
  happens to the numbers, so no law of arithmetic is needed to join the two programs: each side is this product at
  every index, and what there is to show is only WHICH mask entry an output entry reads — on the kernel's side through
  the blocks the grid cuts the arrays into, on the reference's side through the broadcast along the channel axis.
-/
import Idealize.ShloMosaic.PureOps
import Idealize.ShloMosaic.Lib.ValueIdx

noncomputable section

namespace Cert.MaskedFeature

open Idealize.ShloMosaic Idealize.ShloMosaic.ValueIdx

variable {F : FTy → Type} [FloatOps F]

/-- The feature map's (and the result's) index set: sample, channel, row, column. -/
abbrev FeatIdx : Type := (⟨4, ![32, 128, 224, 224]⟩ : Shape).Idx
/-- The mask's index set: sample, its one channel, row, column. -/
abbrev MaskIdx : Type := (⟨4, ![32, 1, 224, 224]⟩ : Shape).Idx

/-- The mask entry that feature entry (b, ch, h, w) is multiplied by: (b, 0, h, w) — same sample, same pixel, the
    mask's only channel. -/
abbrev maskAt (i : FeatIdx) : MaskIdx :=
  ix4 (n0 := 32) (n1 := 1) (n2 := 224) (n3 := 224) (i 0) 0 (i 2) (i 3)

/-- The masked feature map: entry by entry the feature times the mask pixel of its sample. -/
def masked (feat : FeatIdx → Elt F .f32) (mask : MaskIdx → Elt F .f32) : FeatIdx → Elt F .f32 :=
  fun i => FloatOps.mulf (feat i) (mask (maskAt i))

/-- Over the extended reals the masked feature map is the plain product `feat i * mask (maskAt i)`. -/
theorem masked_apply (feat : FeatIdx → Elt Ideal .f32) (mask : MaskIdx → Elt Ideal .f32) (i : FeatIdx) :
    masked feat mask i = feat i * mask (maskAt i) := rfl

end Cert.MaskedFeature

end
-- ==== Proof.KernelValue.lean ====
/-
  The kernel's result array is the masked feature map.

  The grid has 32 × 4 points, one per sample `b` and per group `g` of 32 channels. At point (b, g) the kernel reads
  the feature block (b, channels 32g … 32g+31, all rows, all columns) and the mask block (b, 0, all rows, all columns),
  multiplies the feature block entry by entry with the mask block repeated along the channel axis, and writes the
  product back as block (b, g) of the result. So inside a block, entry (0, k, h, w) of what is written is
  `feature block (0, k, h, w) · mask block (0, 0, h, w)`; seen from the arrays, that is
  `feat (b, 32g + k, h, w) · mask (b, 0, h, w)`, the masked feature map at the array index the block entry sits at.
  The 128 blocks tile the result — entry (b, ch, h, w) lies in the block of point (b, ch / 32) — so after the run the
  whole array is the masked feature map.
-/
import proofs.«116906_j88295937671575_1_alg».proof.Proof.Gen.KernelIdeal.Value
import proofs.«116906_j88295937671575_1_alg».proof.Proof.MaskedFeature

set_option maxRecDepth 16384

noncomputable section

namespace Cert.KernelIdeal.MaskedValue

open Cert.KernelIdeal Cert.KernelIdeal.Gen Cert.KernelIdeal.Value Cert.MaskedFeature
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## One block -/

/-- The body's loads and its store start at the corner of their buffers. -/
theorem corner : (![0, 0, 0, 0] : Fin 4 → Nat) = fun _ => 0 := funext fun a => by fin_cases a <;> rfl

/-- The mask-block entry that block entry (0, k, h, w) meets: (0, 0, h, w). -/
abbrev maskBlockAt (y : S1x32x224x224.Idx) : S1x1x224x224.Idx :=
  ix4 (n0 := 1) (n1 := 1) (n2 := 224) (n3 := 224) 0 0 (y 2) (y 3)

/-- What the body leaves in the output block, entry by entry, for any feature block `x0` and mask block `x1`:
    the feature entry times the mask entry of the same pixel. -/
theorem block_entry (x0 : Vec F S1x32x224x224 .f32) (x1 : Vec F S1x1x224x224 .f32) (y : S1x32x224x224.Idx) :
    out0_2 x0 x1 y = FloatOps.mulf (x0 y) (x1 (maskBlockAt y)) := by
  unfold out0_2
  simp only [View.ld_unit_zero (S := S1x32x224x224) corner, View.ld_unit_zero (S := S1x1x224x224) corner]
  rw [canon2_eq]
  show FloatOps.mulf (x0 (ix2_0 y)) (x1 (ix2_1 y)) = _
  have e0 : ix2_0 y = y := by
    funext a; apply Fin.ext
    match a with
    | ⟨0, _⟩ => show 0 = (y 0).val; have h : (y 0).val < 1 := (y 0).isLt; omega
    | ⟨1, _⟩ => rfl
    | ⟨2, _⟩ => rfl
    | ⟨3, _⟩ => rfl
  have e1 : ix2_1 y = maskBlockAt y := by
    funext a
    match a with
    | ⟨0, _⟩ => rfl
    | ⟨1, _⟩ => rfl
    | ⟨2, _⟩ => rfl
    | ⟨3, _⟩ => rfl
  rw [e0, e1]

/-! ## The blocks in the arrays -/

/-- Where the three windows' blocks sit at grid point `t`, decided over the 128 points: the feature block and the
    result block are the same block (sample, channel group, 0, 0); the mask block is (sample, 0, 0, 0). -/
theorem block_positions : ∀ t : Fin cfg0.N,
    win0_0.index t (0 : Fin 4) = win0_2.index t (0 : Fin 4)
    ∧ win0_0.index t (1 : Fin 4) = win0_2.index t (1 : Fin 4)
    ∧ win0_0.index t (2 : Fin 4) = 0
    ∧ win0_0.index t (3 : Fin 4) = 0
    ∧ win0_2.index t (2 : Fin 4) = 0
    ∧ win0_2.index t (3 : Fin 4) = 0
    ∧ win0_1.index t (0 : Fin 4) = win0_2.index t (0 : Fin 4)
    ∧ win0_1.index t (1 : Fin 4) = 0
    ∧ win0_1.index t (2 : Fin 4) = 0
    ∧ win0_1.index t (3 : Fin 4) = 0 :=
  (by decide +kernel : ∀ t : Fin grid0.N, _)

/-- Every (sample, channel group) pair is some grid point's result block. -/
theorem every_block_is_a_point : ∀ (b : Fin 32) (g : Fin 4), ∃ t : Fin cfg0.N, win0_2.index t = ![b.val, g.val, 0, 0] :=
  (by decide +kernel : ∀ (b : Fin 32) (g : Fin 4), ∃ t : Fin grid0.N, win0_2.index t = ![b.val, g.val, 0, 0])

/-- What grid point `t` writes back is block `t` of the masked feature map of the two argument arrays. -/
theorem written_back (c : Dev nD) (t : Fin cfg0.N) :
    (dats m 0 c).flushed 2 t
      = ((cfg0.win 2).blk t).view.read (Elt F) (masked (V m c main_arg0) (V m c main_arg1)) := by
  rw [flushed2]
  obtain ⟨f0, f1, f2, f3, o2, o3, k0, k1, k2, k3⟩ := block_positions t
  funext j
  show out0_2 (iblk m c 0 t) (iblk m c 1 t) j = masked (V m c main_arg0) (V m c main_arg1) (((cfg0.win 2).blk t).view.emb j)
  refine (block_entry (iblk m c 0 t) (iblk m c 1 t) j).trans ?_
  show FloatOps.mulf (V m c main_arg0 (((cfg0.win 0).blk t).view.emb j)) (V m c main_arg1 (((cfg0.win 1).blk t).view.emb (maskBlockAt j)))
    = FloatOps.mulf (V m c main_arg0 (((cfg0.win 2).blk t).view.emb j)) (V m c main_arg1 (maskAt (((cfg0.win 2).blk t).view.emb j)))
  have hj0 : (j 0).val < 1 := (j 0).isLt
  -- the feature block and the result block are the same block of equally shaped arrays
  have hfeat : ((cfg0.win 0).blk t).view.emb j = ((cfg0.win 2).blk t).view.emb j := by
    funext a; apply Fin.ext
    match a with
    | ⟨0, _⟩ => show win0_0.index t (0 : Fin 4) * 1 + 1 * (j 0).val = win0_2.index t (0 : Fin 4) * 1 + 1 * (j 0).val; omega
    | ⟨1, _⟩ => show win0_0.index t (1 : Fin 4) * 32 + 1 * (j 1).val = win0_2.index t (1 : Fin 4) * 32 + 1 * (j 1).val; omega
    | ⟨2, _⟩ => show win0_0.index t (2 : Fin 4) * 224 + 1 * (j 2).val = win0_2.index t (2 : Fin 4) * 224 + 1 * (j 2).val; omega
    | ⟨3, _⟩ => show win0_0.index t (3 : Fin 4) * 224 + 1 * (j 3).val = win0_2.index t (3 : Fin 4) * 224 + 1 * (j 3).val; omega
  -- the mask block is the sample's, and the pixel is the result entry's pixel
  have hmask : ((cfg0.win 1).blk t).view.emb (maskBlockAt j) = maskAt (((cfg0.win 2).blk t).view.emb j) := by
    funext a; apply Fin.ext
    match a with
    | ⟨0, _⟩ => show win0_1.index t (0 : Fin 4) * 1 + 1 * 0 = win0_2.index t (0 : Fin 4) * 1 + 1 * (j 0).val; omega
    | ⟨1, _⟩ => show win0_1.index t (1 : Fin 4) * 1 + 1 * 0 = 0; omega
    | ⟨2, _⟩ => show win0_1.index t (2 : Fin 4) * 224 + 1 * (j 2).val = win0_2.index t (2 : Fin 4) * 224 + 1 * (j 2).val; omega
    | ⟨3, _⟩ => show win0_1.index t (3 : Fin 4) * 224 + 1 * (j 3).val = win0_2.index t (3 : Fin 4) * 224 + 1 * (j 3).val; omega
  rw [hfeat, hmask]

/-- An index of the result array lies in point `t`'s block iff each coordinate lies in the block's range on its axis. -/
theorem mem_block (t : Fin cfg0.N) (i : S32x128x224x224.Idx) :
    i ∈ ((cfg0.win 2).blk t).view.set ↔ ∀ a : Fin 4, win0_2.index t a * S1x32x224x224.size a ≤ (i a).val
      ∧ (i a).val < win0_2.index t a * S1x32x224x224.size a + S1x32x224x224.size a := by
  show i ∈ ((View.whole main_v0).slice (win0_2.rect t)).set ↔ _
  rw [View.set_slice_whole, Rect.mem_set_unit]
  exact Iff.rfl

/-- The blocks tile the result: entry (b, ch, h, w) lies in the block of the point for sample `b` and channel group
    `ch / 32`, and every point writes its block back. -/
theorem blocks_cover (i : S32x128x224x224.Idx) :
    ∃ t : Fin cfg0.N, (cfg0.win 2).flush t = true ∧ i ∈ ((cfg0.win 2).blk t).view.set := by
  have hi0 : (i 0).val < 32 := (i 0).isLt
  have hi1 : (i 1).val < 128 := (i 1).isLt
  have hi2 : (i 2).val < 224 := (i 2).isLt
  have hi3 : (i 3).val < 224 := (i 3).isLt
  obtain ⟨t, ht⟩ := every_block_is_a_point ⟨(i 0).val, hi0⟩ ⟨(i 1).val / 32, by omega⟩
  have q0 : win0_2.index t (0 : Fin 4) = (i 0).val := congrFun ht 0
  have q1 : win0_2.index t (1 : Fin 4) = (i 1).val / 32 := congrFun ht 1
  have q2 : win0_2.index t (2 : Fin 4) = 0 := congrFun ht 2
  have q3 : win0_2.index t (3 : Fin 4) = 0 := congrFun ht 3
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 32 ≤ (i 1).val ∧ (i 1).val < win0_2.index t (1 : Fin 4) * 32 + 32; omega
  | ⟨2, _⟩ => show win0_2.index t (2 : Fin 4) * 224 ≤ (i 2).val ∧ (i 2).val < win0_2.index t (2 : Fin 4) * 224 + 224; omega
  | ⟨3, _⟩ => show win0_2.index t (3 : Fin 4) * 224 ≤ (i 3).val ∧ (i 3).val < win0_2.index t (3 : Fin 4) * 224 + 224; omega

/-! ## The array after the run -/

/-- After the run the result array is the masked feature map of the argument arrays as launched. -/
theorem result_array (c : Dev nD) :
    (dats m 0 c).arrAt 2 cfg0.N
      = masked (m ((c : Thread nD τ).loc main_arg0)) (m ((c : Thread nD τ).loc main_arg1)) :=
  (dats m 0 c).arrAt_eq_of_cover 2 (masked (V m c main_arg0) (V m c main_arg1))
    (fun t _ => written_back m c t) blocks_cover

/-- Every weakly fair execution of the kernel's program terminates with the result array at the masked feature map of
    the arguments, and the arguments unchanged. -/
theorem run : θ_run defs (onTc (τ := τ) (main (F := F))) ⟨m, fun _ => 0, ρ⟩ fun r => ∀ c : Dev nD,
      r.2.mem ((c : Thread nD τ).loc main_v0)
        = masked (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_array m c), (h c).2⟩) (run_blocks m ρ)

end Cert.KernelIdeal.MaskedValue

end
-- ==== Proof.ReferenceValue.lean ====
/-
  The reference is the masked feature map.

  The reference multiplies the feature map by the mask broadcast along the channel axis. Read at an index
  (b, ch, h, w), the broadcast is the mask at (b, 0, h, w): axes 0, 2 and 3 of the mask have the result's extents
  and are read at the result's coordinates, axis 1 has extent one and is read at 0. That is `maskAt`, so the
  reference's product is `masked` entry by entry.
-/
import proofs.«116906_j88295937671575_1_alg».proof.Proof.Gen.ReferenceIdeal.Read
import proofs.«116906_j88295937671575_1_alg».proof.Proof.MaskedFeature

noncomputable section

namespace Cert.ReferenceIdeal.RefValue

open Cert.ReferenceIdeal Cert.ReferenceIdeal.Read Cert.MaskedFeature Idealize.ShloMosaic Idealize.ShloMosaic.ValueIdx

variable {F : FTy → Type} [FloatOps F]

/-- The channel broadcast reads the mask at the entry `maskAt` names: coordinate by coordinate the two indices are
    the same numbers. -/
theorem broadcast_reads_maskAt (i : S32x128x224x224.Idx) : idx_main_v0 i = maskAt i := by
  funext a
  match a with
  | ⟨0, _⟩ => rfl
  | ⟨1, _⟩ => rfl
  | ⟨2, _⟩ => rfl
  | ⟨3, _⟩ => rfl

/-- The reference's result, as a function of its two arguments, is the masked feature map. -/
theorem reference_eq_masked (feat : (⟨S32x128x224x224, .f32⟩ : BufTy).Contents (Elt F))
    (mask : (⟨S32x1x224x224, .f32⟩ : BufTy).Contents (Elt F)) :
    val_main_v1 (F := F) feat mask = masked feat mask := by
  funext i
  rw [val_main_v1_apply, val_main_v0_apply, broadcast_reads_maskAt]
  rfl

end Cert.ReferenceIdeal.RefValue

end
-- ==== Proof.lean ====
/-
  The certificate: a kernel that multiplies a feature map [32, 128, 224, 224] by a one-channel keep mask
  [32, 1, 224, 224], one block of 32 channels of one sample per grid point, against the reference's single broadcast
  product.

  Both idealized programs end with the SAME array, the masked feature map
  `feat (b, ch, h, w) · mask (b, 0, h, w)` (Proof/MaskedFeature.lean): the kernel because each grid point writes the
  block of that map it is responsible for and the 128 blocks tile the result (Proof/KernelValue.lean), the reference
  because a broadcast along the channel axis reads the mask at (b, 0, h, w) (Proof/ReferenceValue.lean). The product
  is formed once on each side from the same two entries, so the equality uses no law of arithmetic and does not need
  the inputs to be finite. The three programs run, without a fault and leaving their arguments alone; the idealized
  kernel is the kernel's own text read over the extended reals, no operation rewritten.
-/
import proofs.«116906_j88295937671575_1_alg».proof.Defs
import proofs.«116906_j88295937671575_1_alg».proof.Proof.Gen.Kernel
import proofs.«116906_j88295937671575_1_alg».proof.Proof.Gen.Kernel.Skeleton
import proofs.«116906_j88295937671575_1_alg».proof.Proof.Gen.Kernel.Launch
import proofs.«116906_j88295937671575_1_alg».proof.Proof.Gen.Kernel.Points
import proofs.«116906_j88295937671575_1_alg».proof.Proof.Gen.Kernel.Frame
import proofs.«116906_j88295937671575_1_alg».proof.Proof.Gen.KernelIdeal
import proofs.«116906_j88295937671575_1_alg».proof.Proof.Gen.KernelIdeal.Skeleton
import proofs.«116906_j88295937671575_1_alg».proof.Proof.Gen.KernelIdeal.Launch
import proofs.«116906_j88295937671575_1_alg».proof.Proof.Gen.KernelIdeal.Points
import proofs.«116906_j88295937671575_1_alg».proof.Proof.Gen.KernelIdeal.Frame
import proofs.«116906_j88295937671575_1_alg».proof.Proof.Gen.ReferenceIdeal
import proofs.«116906_j88295937671575_1_alg».proof.Proof.Gen.Pre_finite_inputs
import proofs.«116906_j88295937671575_1_alg».proof.Proof.Gen.ReferenceIdeal.Run
import proofs.«116906_j88295937671575_1_alg».proof.Proof.KernelValue
import proofs.«116906_j88295937671575_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves both arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is two host operations; its run, with the result forgotten, is its frame. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the feature map and the mask, both idealized programs end with the masked feature map
    of those two arrays: the kernel's result array block by block, the reference's by reading its broadcast product at
    an index. -/
theorem algebraic : Cert.algebraic_KernelIdeal_ReferenceIdeal := by
  intro m ρ m' ρ' _ hagree
  refine ⟨fun c => Cert.MaskedFeature.masked
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.MaskedValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.reference_eq_masked,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
